-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128 : Shape := ⟨1, ![128]⟩
abbrev S128x3 : Shape := ⟨2, ![128, 3]⟩
abbrev S3 : Shape := ⟨1, ![3]⟩
abbrev S2x1600000 : Shape := ⟨2, ![2, 1600000]⟩
abbrev S1600000 : Shape := ⟨1, ![1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3 .f32) (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x512 .f32) (main_arg1 : FVec F S512x128 .f32) (main_arg2 : FVec F S128 .f32) (main_arg3 : FVec F S128x3 .f32) (main_arg4 : FVec F S3 .f32) (main_arg5 : IVec S2x1600000 32) (main_arg6 : IVec S1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x3 .f32 := Host.absf main_arg3
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_arg4 main_v13 main_v16
-- ==== Kernel.lean ====
abbrev S100000x512 : Shape := ⟨2, ![100000, 512]⟩
abbrev S512x128 : Shape := ⟨2, ![512, 128]⟩
abbrev S128 : Shape := ⟨1, ![128]⟩
abbrev S128x3 : Shape := ⟨2, ![128, 3]⟩
abbrev S3 : Shape := ⟨1, ![3]⟩
abbrev S2x1600000 : Shape := ⟨2, ![2, 1600000]⟩
abbrev S1600000 : Shape := ⟨1, ![1600000]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x512 : Shape := ⟨2, ![10000, 512]⟩
abbrev S10000x128 : Shape := ⟨2, ![10000, 128]⟩
abbrev S1700000x128 : Shape := ⟨2, ![1700000, 128]⟩
abbrev S1x128 : Shape := ⟨2, ![1, 128]⟩
abbrev S100000x3 : Shape := ⟨2, ![100000, 3]⟩
abbrev S10000x3 : Shape := ⟨2, ![10000, 3]⟩
abbrev S1700000x3 : Shape := ⟨2, ![1700000, 3]⟩
abbrev S1x3 : Shape := ⟨2, ![1, 3]⟩

abbrev nBuf : Space → Nat
  | .hbm => 94
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x3, .f32⟩
  | .hbm, ⟨4, _⟩ => ⟨S3, .f32⟩
  | .hbm, ⟨5, _⟩ => ⟨S2x1600000, .i32⟩
  | .hbm, ⟨6, _⟩ => ⟨S1600000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x512, .bf16⟩
  | .hbm, ⟨48, _⟩ => ⟨S512x128, .bf16⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .bf16⟩
  | .hbm, ⟨73, _⟩ => ⟨S128x3, .bf16⟩
  | .hbm, ⟨74, _⟩ => ⟨S100000x3, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x3, .f32⟩
  | .hbm, ⟨84, _⟩ => ⟨S1700000x1, .f32⟩
  | .hbm, ⟨85, _⟩ => ⟨S1700000x3, .f32⟩
  | .hbm, ⟨86, _⟩ => ⟨S1700000x3, .f32⟩
  | .hbm, ⟨87, _⟩ => ⟨S_, .f32⟩
  | .hbm, ⟨88, _⟩ => ⟨S100000x3, .f32⟩
  | .hbm, ⟨89, _⟩ => ⟨S1700000x1, .i32⟩
  | .hbm, ⟨90, _⟩ => ⟨S100000x3, .f32⟩
  | .hbm, ⟨91, _⟩ => ⟨S1x3, .f32⟩
  | .hbm, ⟨92, _⟩ => ⟨S100000x3, .f32⟩
  | .hbm, ⟨93, _⟩ => ⟨S100000x3, .f32⟩
  | .local _ .vmem, ⟨0, _⟩ => ⟨S10000x512, .bf16⟩
  | .local _ .vmem, ⟨1, _⟩ => ⟨S10000x512, .bf16⟩
  | .local _ .vmem, ⟨2, _⟩ => ⟨S512x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .bf16⟩
  | .local _ .vmem, ⟨6, _⟩ => ⟨S10000x128, .bf16⟩
  | .local _ .vmem, ⟨7, _⟩ => ⟨S128x3, .bf16⟩
  | .local _ .vmem, ⟨8, _⟩ => ⟨S10000x3, .f32⟩
  | .local _ .vmem, ⟨9, _⟩ => ⟨S10000x3, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x3 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S10000x3_S10000x3_0_0 : ∀ a, (![0, 0] : Fin 2 → Nat) a + S10000x3.size a ≤ S10000x3.size a
  h_S10000x3 : 0 < S10000x3.numel
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x512_S512x128_S10000x128_1_0_0_1_n_n_wf : DotDims.WF S10000x512 S512x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x3_S10000x3_1_0_0_1_n_n_wf : DotDims.WF S10000x128 S128x3 S10000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x512.size a ≤ S100000x512.size a
  hwx0_0 : ∀ i : grid0.Coords, EltTy.bits .bf16 = 32 ∨ (Rect.block (s := S100000x512) S10000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x3.size a ≤ S128x3.size a
  hwx1_1 : ∀ i : grid1.Coords, EltTy.bits .bf16 = 32 ∨ (Rect.block (s := S128x3) S128x3.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x3.size a ≤ S100000x3.size a
  hwx1_2 : ∀ i : grid1.Coords, EltTy.bits .f32 = 32 ∨ (Rect.block (s := S100000x3) S10000x3.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x3_S10000x3_1_0_0_1_n_n : DotDims S10000x128 S128x3 S10000x3 where
  lhsContracting := [1]
  rhsContracting := [0]
  lhsNonContracting := [0]
  rhsNonContracting := [1]
  lhsBatch := []
  rhsBatch := []
  wf := dot_S10000x128_S128x3_S10000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

abbrev win0_0 : Pipeline.Window sig grid0 :=
  Pipeline.Window.ofSpec (Memref.whole main_v30) S10000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S128x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x3.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128 : Shape := ⟨1, ![128]⟩
abbrev S128x3 : Shape := ⟨2, ![128, 3]⟩
abbrev S3 : Shape := ⟨1, ![3]⟩
abbrev S2x1600000 : Shape := ⟨2, ![2, 1600000]⟩
abbrev S1600000 : Shape := ⟨1, ![1600000]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x3 : Shape := ⟨2, ![100000, 3]⟩
abbrev S1700000x3 : Shape := ⟨2, ![1700000, 3]⟩
abbrev S1x3 : Shape := ⟨2, ![1, 3]⟩

abbrev nBuf : Space → Nat
  | .hbm => 90
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x3, .f32⟩
  | .hbm, ⟨4, _⟩ => ⟨S3, .f32⟩
  | .hbm, ⟨5, _⟩ => ⟨S2x1600000, .i32⟩
  | .hbm, ⟨6, _⟩ => ⟨S1600000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x3, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x3, .f32⟩
  | .hbm, ⟨80, _⟩ => ⟨S1700000x1, .f32⟩
  | .hbm, ⟨81, _⟩ => ⟨S1700000x3, .f32⟩
  | .hbm, ⟨82, _⟩ => ⟨S1700000x3, .f32⟩
  | .hbm, ⟨83, _⟩ => ⟨S_, .f32⟩
  | .hbm, ⟨84, _⟩ => ⟨S100000x3, .f32⟩
  | .hbm, ⟨85, _⟩ => ⟨S1700000x1, .i32⟩
  | .hbm, ⟨86, _⟩ => ⟨S100000x3, .f32⟩
  | .hbm, ⟨87, _⟩ => ⟨S1x3, .f32⟩
  | .hbm, ⟨88, _⟩ => ⟨S100000x3, .f32⟩
  | .hbm, ⟨89, _⟩ => ⟨S100000x3, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x3_S100000x3_1_0_0_1_n_n_wf : DotDims.WF S100000x128 S128x3 S100000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

class Facts : Prop extends Facts₀ where

variable [Facts]
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowBlockProduct.lean ====
/-
  A matrix product tiled by ROW BLOCKS is the whole product (general in the sizes).

  The product of an [R, K] matrix and a [K, N] matrix over the extended reals, as one function of the two
  arrays: entry (p, q) is the sum over k of A (p, k) · B (k, q).

  Both programs compute it. The host's general dot product with the plain dimension numbers IS this
  function (`dotGeneral_eq_prod`). A kernel that holds only `Rb` consecutive rows of A, starting at row `o`,
  and multiplies them into a zero accumulator, leaves the rows o … o + Rb − 1 of the same function
  (`matmul_rows`): the sum over k at an entry reads one row of A and one column of B, so cutting A by rows
  cuts the product by rows. No finiteness is needed: nothing is regrouped, the two sums have the same terms.
-/
import proofs.«158699_j82497731822015_1_alg».proof.Proof.LibPlainDot

open scoped BigOperators

noncomputable section

namespace Idealize.ShloMosaic.RowBlockProduct

open Idealize.ShloMosaic Idealize.ShloMosaic.ValueIdx Idealize.ShloMosaic.PlainDot

variable {R Rb K N : ℕ}

/-- The matrix product at the extended reals, index by index. -/
def prod (A : (⟨2, ![R, K]⟩ : Shape).Idx → EReal) (B : (⟨2, ![K, N]⟩ : Shape).Idx → EReal) :
    (⟨2, ![R, N]⟩ : Shape).Idx → EReal :=
  fun i => ∑ k : Fin K, A (ix2 (i 0) k) * B (ix2 k (i 1))

theorem prod_apply (A : (⟨2, ![R, K]⟩ : Shape).Idx → EReal) (B : (⟨2, ![K, N]⟩ : Shape).Idx → EReal)
    (p : Fin R) (q : Fin N) : prod A B (ix2 p q) = ∑ k : Fin K, A (ix2 p k) * B (ix2 k q) := rfl

/-- The host's general dot product with the plain dimension numbers is the product, whatever the operands'
    float formats (a format is not seen at the extended reals). -/
theorem dotGeneral_eq_prod {φ₁ φ₂ : FTy}
    {d : DotDims (⟨2, ![R, K]⟩ : Shape) (⟨2, ![K, N]⟩ : Shape) (⟨2, ![R, N]⟩ : Shape)} (h : IsPlain d)
    (prec : Option ContractPrecision) (l : FVec Ideal (⟨2, ![R, K]⟩ : Shape) φ₁) (r : FVec Ideal (⟨2, ![K, N]⟩ : Shape) φ₂) :
    Host.dotGeneral (F := Ideal) d prec l r = prod l r := by
  funext j
  obtain ⟨p, q, rfl⟩ : ∃ (p : Fin R) (q : Fin N), j = ix2 p q := ⟨j 0, j 1, eq_ix2 j⟩
  exact (Ideal.dotGeneral_apply d prec .single l r (ix2 p q)).trans (sum_contr h l r p q)

/-- A kernel's product of `Rb` rows of `A` (the rows from `o` on) with `B`, into the zero accumulator, read at
    (p, q), is the whole product at row `o + p`. -/
theorem matmul_rows {φ₁ φ₂ : FTy}
    {d : DotDims (⟨2, ![Rb, K]⟩ : Shape) (⟨2, ![K, N]⟩ : Shape) (⟨2, ![Rb, N]⟩ : Shape)} (h : IsPlain d)
    (prec : Option ContractPrecision)
    (A : (⟨2, ![R, K]⟩ : Shape).Idx → EReal) (B : (⟨2, ![K, N]⟩ : Shape).Idx → EReal)
    (x0 : FVec Ideal (⟨2, ![Rb, K]⟩ : Shape) φ₁) (x1 : FVec Ideal (⟨2, ![K, N]⟩ : Shape) φ₂)
    (o : ℕ) (ho : o + Rb ≤ R)
    (hx0 : ∀ (p : Fin Rb) (k : Fin K), x0 (ix2 p k) = A (ix2 ⟨o + p.val, by have := p.isLt; omega⟩ k))
    (hx1 : ∀ (k : Fin K) (q : Fin N), x1 (ix2 k q) = B (ix2 k q))
    (p : Fin Rb) (q : Fin N) :
    matmul (F := Ideal) d prec x0 x1 (constant (⟨2, ![Rb, N]⟩ : Shape) .f32 0x00000000#32) (ix2 p q)
      = prod A B (ix2 ⟨o + p.val, by have := p.isLt; omega⟩ q) := by
  rw [prod_apply]
  refine ((Ideal.matmul_constant_zero_apply d prec x0 x1 (ix2 p q)).trans (sum_contr h x0 x1 p q)).trans ?_
  exact Finset.sum_congr rfl fun k _ => by rw [hx0 p k, hx1 k q]

end Idealize.ShloMosaic.RowBlockProduct

end
-- ==== Proof.Region0.lean ====
/-
  The value of the first tiled matrix product, at the extended reals, for any contents `V` the region is entered with.

  The region's grid has ten points. Point `t` is handed rows 10000·t … 10000·t + 9999 of the left array
  (`main_v30`, 100000 × 512) and the whole right array (`main_v31`, 512 × 128); its body multiplies the two into a zero
  accumulator and stores the 10000 × 128 result, which is written back as rows 10000·t … 10000·t + 9999 of
  `main_v32`. Entry (p, q) of a point's result is the sum over k of (row 10000·t + p of the left array)(k) times
  (column q of the right array)(k): that is entry (10000·t + p, q) of the product of the two WHOLE arrays. So every
  point writes back its block of one and the same function, the ten blocks tile the result array (row r lies in block
  r / 10000), and the array ends holding the whole product (`final0`).
-/
import proofs.«158699_j82497731822015_1_alg».proof.Proof.Gen.KernelIdeal.Frame
import proofs.«158699_j82497731822015_1_alg».proof.Proof.LibRowBlockProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The block indices of the three windows at a point: the left operand and the result move down the rows with the
    point, the right operand stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's matrix product contracts the left operand's columns with the right operand's rows. -/
theorem plain0 : PlainDot.IsPlain dot_S10000x512_S512x128_S10000x128_1_0_0_1_n_n := ⟨rfl, rfl, rfl, rfl, rfl, rfl⟩

/-- A row of a point's block is a row of the array. -/
theorem row_lt0 (t : Fin cfg0.N) (p : Fin 10000) : t.val * 10000 + p.val < 100000 := by
  have h := lt_of_lt_of_eq t.isLt N_0
  have := p.isLt
  omega

/-- The two input arrays as the region finds them. -/
abbrev lhs0 (c : Dev nD) : S100000x512.Idx → EReal := V c main_v30
abbrev rhs0 (c : Dev nD) : S512x128.Idx → EReal := V c main_v31

/-- The left window's block at point `t`: rows 10000·t … of the left array. -/
theorem iblk0_0_apply (c : Dev nD) (t : Fin cfg0.N) (p : Fin 10000) (k : Fin 512) :
    (iblk0 V c 0 t : Vec Ideal S10000x512 .bf16) (ix2 p k)
      = lhs0 V c (ix2 ⟨t.val * 10000 + p.val, row_lt0 t p⟩ k) := by
  obtain ⟨e0, e1, -⟩ := idx0 t
  unfold iblk0
  rw [View.read_apply]
  show V c main_v30 _ = V c main_v30 _
  congr 1
  funext a
  apply Fin.ext
  match a with
  | ⟨0, _⟩ => show win0_0.index t (0 : Fin 2) * 10000 + 1 * p.val = t.val * 10000 + p.val; rw [e0]; omega
  | ⟨1, _⟩ => show win0_0.index t (1 : Fin 2) * 512 + 1 * k.val = k.val; rw [e1]; omega

/-- The right window's block at any point: the whole right array. -/
theorem iblk0_1_apply (c : Dev nD) (t : Fin cfg0.N) (k : Fin 512) (q : Fin 128) :
    (iblk0 V c 1 t : Vec Ideal S512x128 .bf16) (ix2 k q) = rhs0 V c (ix2 k q) := by
  obtain ⟨-, -, e2, e3, -⟩ := idx0 t
  unfold iblk0
  rw [View.read_apply]
  show V c main_v31 _ = V c main_v31 _
  congr 1
  funext a
  apply Fin.ext
  match a with
  | ⟨0, _⟩ => show win0_1.index t (0 : Fin 2) * 512 + 1 * k.val = k.val; rw [e2]; omega
  | ⟨1, _⟩ => show win0_1.index t (1 : Fin 2) * 128 + 1 * q.val = q.val; rw [e3]; omega

/-- What point `t` writes back is block `t` of the product of the two whole arrays. -/
theorem flushed0_eq (c : Dev nD) (t : Fin cfg0.N) :
    (dat0 V c).flushed 2 t = ((cfg0.win 2).blk t).view.read (Elt Ideal) (RowBlockProduct.prod (lhs0 V c) (rhs0 V c)) := by
  show (cfg0.win 2).cut (grid0.coords t) ((dat0 V c).after 2 t) = _
  rw [after0_2]
  unfold out0_2
  rw [View.canon_unit_zero hz0]
  simp only [View.ld_unit_zero (S := S10000x512) hz0, View.ld_unit_zero (S := S512x128) hz0]
  funext j
  obtain ⟨p, q, rfl⟩ : ∃ (p : Fin 10000) (q : Fin 128), j = ix2 p q := ⟨j 0, j 1, eq_ix2 j⟩
  rw [View.read_apply]
  obtain ⟨-, -, -, -, e4, e5⟩ := idx0 t
  -- the part of the staging buffer the write-back moves is all of it
  have hx : (win0 2).xinj (grid0.coords t) (ix2 p q) = (ix2 p q : S10000x128.Idx) := by
    funext a; apply Fin.ext
    match a with
    | ⟨0, _⟩ => rfl
    | ⟨1, _⟩ => rfl
  -- entry (p, q) of the block lands at row 10000·t + p, column q of the array
  have he : ((View.whole main_v32).slice ((win0 2).rect t)).emb (ix2 p q)
      = (ix2 ⟨t.val * 10000 + p.val, row_lt0 t p⟩ q : S100000x128.Idx) := by
    funext a; apply Fin.ext
    match a with
    | ⟨0, _⟩ => show win0_2.index t (0 : Fin 2) * 10000 + 1 * p.val = t.val * 10000 + p.val; rw [e4]; omega
    | ⟨1, _⟩ => show win0_2.index t (1 : Fin 2) * 128 + 1 * q.val = q.val; rw [e5]; omega
  show k0_pay1 (iblk0 V c 0 t) (iblk0 V c 1 t) ((win0 2).xinj (grid0.coords t) (ix2 p q))
    = RowBlockProduct.prod (lhs0 V c) (rhs0 V c) (((View.whole main_v32).slice ((win0 2).rect t)).emb (ix2 p q))
  rw [hx, he]
  unfold k0_pay1
  rw [shapeCast_self, shapeCast_self]
  exact RowBlockProduct.matmul_rows plain0 none (lhs0 V c) (rhs0 V c) _ _ (t.val * 10000)
    (by have h := lt_of_lt_of_eq t.isLt N_0; omega)
    (fun p k => iblk0_0_apply V c t p k) (fun k q => iblk0_1_apply V c t k q) p q

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every row of the result lies in the block of the point that holds it: row r in block r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 10000 < cfg0.N := by rw [show cfg0.N = 10 from N_0]; omega
  refine ⟨⟨(i 0).val / 10000, ht⟩, flush0_2 _, ?_⟩
  rw [mem_blk0]
  obtain ⟨-, -, -, -, e4, e5⟩ := idx0 ⟨(i 0).val / 10000, ht⟩
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e5]; omega

/-- The region's result array after the run: the product of its two input arrays as the region finds them. -/
theorem final0 (c : Dev nD) : (dat0 V c).arrAt 2 cfg0.N = RowBlockProduct.prod (lhs0 V c) (rhs0 V c) :=
  (dat0 V c).arrAt_eq_of_cover 2 (RowBlockProduct.prod (lhs0 V c) (rhs0 V c)) (fun t _ => flushed0_eq V c t) (cover0)

end Cert.KernelIdeal.Hand

end
-- ==== Proof.Region1.lean ====
/-
  The value of the second tiled matrix product, at the extended reals, for any contents `V` the region is entered with.

  The region's grid has ten points. Point `t` is handed rows 10000·t … 10000·t + 9999 of the left array
  (`main_v50`, 100000 × 128) and the whole right array (`main_v51`, 128 × 3); its body multiplies the two into a zero
  accumulator and stores the 10000 × 3 result, which is written back as rows 10000·t … 10000·t + 9999 of
  `main_v52`. Entry (p, q) of a point's result is the sum over k of (row 10000·t + p of the left array)(k) times
  (column q of the right array)(k): that is entry (10000·t + p, q) of the product of the two WHOLE arrays. So every
  point writes back its block of one and the same function, the ten blocks tile the result array (row r lies in block
  r / 10000), and the array ends holding the whole product (`final1`).
-/
import proofs.«158699_j82497731822015_1_alg».proof.Proof.Gen.KernelIdeal.Frame
import proofs.«158699_j82497731822015_1_alg».proof.Proof.LibRowBlockProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The block indices of the three windows at a point: the left operand and the result move down the rows with the
    point, the right operand stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's matrix product contracts the left operand's columns with the right operand's rows. -/
theorem plain1 : PlainDot.IsPlain dot_S10000x128_S128x3_S10000x3_1_0_0_1_n_n := ⟨rfl, rfl, rfl, rfl, rfl, rfl⟩

/-- A row of a point's block is a row of the array. -/
theorem row_lt1 (t : Fin cfg1.N) (p : Fin 10000) : t.val * 10000 + p.val < 100000 := by
  have h := lt_of_lt_of_eq t.isLt N_1
  have := p.isLt
  omega

/-- The two input arrays as the region finds them. -/
abbrev lhs1 (c : Dev nD) : S100000x128.Idx → EReal := V c main_v50
abbrev rhs1 (c : Dev nD) : S128x3.Idx → EReal := V c main_v51

/-- The left window's block at point `t`: rows 10000·t … of the left array. -/
theorem iblk1_0_apply (c : Dev nD) (t : Fin cfg1.N) (p : Fin 10000) (k : Fin 128) :
    (iblk1 V c 0 t : Vec Ideal S10000x128 .bf16) (ix2 p k)
      = lhs1 V c (ix2 ⟨t.val * 10000 + p.val, row_lt1 t p⟩ k) := by
  obtain ⟨e0, e1, -⟩ := idx1 t
  unfold iblk1
  rw [View.read_apply]
  show V c main_v50 _ = V c main_v50 _
  congr 1
  funext a
  apply Fin.ext
  match a with
  | ⟨0, _⟩ => show win1_0.index t (0 : Fin 2) * 10000 + 1 * p.val = t.val * 10000 + p.val; rw [e0]; omega
  | ⟨1, _⟩ => show win1_0.index t (1 : Fin 2) * 128 + 1 * k.val = k.val; rw [e1]; omega

/-- The right window's block at any point: the whole right array. -/
theorem iblk1_1_apply (c : Dev nD) (t : Fin cfg1.N) (k : Fin 128) (q : Fin 3) :
    (iblk1 V c 1 t : Vec Ideal S128x3 .bf16) (ix2 k q) = rhs1 V c (ix2 k q) := by
  obtain ⟨-, -, e2, e3, -⟩ := idx1 t
  unfold iblk1
  rw [View.read_apply]
  show V c main_v51 _ = V c main_v51 _
  congr 1
  funext a
  apply Fin.ext
  match a with
  | ⟨0, _⟩ => show win1_1.index t (0 : Fin 2) * 128 + 1 * k.val = k.val; rw [e2]; omega
  | ⟨1, _⟩ => show win1_1.index t (1 : Fin 2) * 3 + 1 * q.val = q.val; rw [e3]; omega

/-- What point `t` writes back is block `t` of the product of the two whole arrays. -/
theorem flushed1_eq (c : Dev nD) (t : Fin cfg1.N) :
    (dat1 V c).flushed 2 t = ((cfg1.win 2).blk t).view.read (Elt Ideal) (RowBlockProduct.prod (lhs1 V c) (rhs1 V c)) := by
  show (cfg1.win 2).cut (grid1.coords t) ((dat1 V c).after 2 t) = _
  rw [after1_2]
  unfold out1_2
  rw [View.canon_unit_zero hz1]
  simp only [View.ld_unit_zero (S := S10000x128) hz1, View.ld_unit_zero (S := S128x3) hz1]
  funext j
  obtain ⟨p, q, rfl⟩ : ∃ (p : Fin 10000) (q : Fin 3), j = ix2 p q := ⟨j 0, j 1, eq_ix2 j⟩
  rw [View.read_apply]
  obtain ⟨-, -, -, -, e4, e5⟩ := idx1 t
  -- the part of the staging buffer the write-back moves is all of it
  have hx : (win1 2).xinj (grid1.coords t) (ix2 p q) = (ix2 p q : S10000x3.Idx) := by
    funext a; apply Fin.ext
    match a with
    | ⟨0, _⟩ => rfl
    | ⟨1, _⟩ => rfl
  -- entry (p, q) of the block lands at row 10000·t + p, column q of the array
  have he : ((View.whole main_v52).slice ((win1 2).rect t)).emb (ix2 p q)
      = (ix2 ⟨t.val * 10000 + p.val, row_lt1 t p⟩ q : S100000x3.Idx) := by
    funext a; apply Fin.ext
    match a with
    | ⟨0, _⟩ => show win1_2.index t (0 : Fin 2) * 10000 + 1 * p.val = t.val * 10000 + p.val; rw [e4]; omega
    | ⟨1, _⟩ => show win1_2.index t (1 : Fin 2) * 3 + 1 * q.val = q.val; rw [e5]; omega
  show k1_pay1 (iblk1 V c 0 t) (iblk1 V c 1 t) ((win1 2).xinj (grid1.coords t) (ix2 p q))
    = RowBlockProduct.prod (lhs1 V c) (rhs1 V c) (((View.whole main_v52).slice ((win1 2).rect t)).emb (ix2 p q))
  rw [hx, he]
  unfold k1_pay1
  rw [shapeCast_self, shapeCast_self]
  exact RowBlockProduct.matmul_rows plain1 none (lhs1 V c) (rhs1 V c) _ _ (t.val * 10000)
    (by have h := lt_of_lt_of_eq t.isLt N_1; omega)
    (fun p k => iblk1_0_apply V c t p k) (fun k q => iblk1_1_apply V c t k q) p q

/-- An index of the result array is in point `t`'s block iff each coordinate is in the block's range on its axis. -/
theorem mem_blk1 (t : Fin cfg1.N) (i : S100000x3.Idx) :
    i ∈ ((cfg1.win 2).blk t).view.set ↔ ∀ a : Fin 2, win1_2.index t a * S10000x3.size a ≤ (i a).val ∧ (i a).val < win1_2.index t a * S10000x3.size a + S10000x3.size a := by
  show i ∈ ((View.whole main_v52).slice (win1_2.rect t)).set ↔ _
  rw [View.set_slice_whole, Rect.mem_set_unit]
  exact Iff.rfl

/-- Every row of the result lies in the block of the point that holds it: row r in block r / 10000. -/
theorem cover1 (i : S100000x3.Idx) :
    ∃ t : Fin cfg1.N, (cfg1.win 2).flush t = true ∧ i ∈ ((cfg1.win 2).blk t).view.set := by
  have hi0 : (i 0).val < 100000 := (i 0).isLt
  have hi1 : (i 1).val < 3 := (i 1).isLt
  have ht : (i 0).val / 10000 < cfg1.N := by rw [show cfg1.N = 10 from N_1]; omega
  refine ⟨⟨(i 0).val / 10000, ht⟩, flush1_2 _, ?_⟩
  rw [mem_blk1]
  obtain ⟨-, -, -, -, e4, e5⟩ := idx1 ⟨(i 0).val / 10000, ht⟩
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 3 ≤ (i 1).val ∧ (i 1).val < win1_2.index ⟨(i 0).val / 10000, ht⟩ (1 : Fin 2) * 3 + 3
    rw [e5]; omega

/-- The region's result array after the run: the product of its two input arrays as the region finds them. -/
theorem final1 (c : Dev nD) : (dat1 V c).arrAt 2 cfg1.N = RowBlockProduct.prod (lhs1 V c) (rhs1 V c) :=
  (dat1 V c).arrAt_eq_of_cover 2 (RowBlockProduct.prod (lhs1 V c) (rhs1 V c)) (fun t _ => flushed1_eq V c t) (cover1)

end Cert.KernelIdeal.Hand

end
-- ==== Proof.HostParts.lean ====
/-
  What the two programs share: the host operations around the matrix products.

  Both programs build, from the edge list `e : i32[2, 1600000]`, the sources and the destinations with one
  self-loop per node appended (`srcIdx`, `dstIdx`: 1,700,000 entries each), the degree of every node as the
  accumulated count of its incoming edges, its inverse square root where the degree is positive and zero
  elsewhere, and the weight of an edge as the product of that value at its two ends (`edgeNorm`). One layer
  then takes a node table `h`, gathers row `src` for every edge, scales it by the edge's weight, accumulates
  the rows at `dst`, and adds the bias (`layer128` at width 128, `layer3` at width 3); between the layers the
  positive part is taken (`posPart`). These are the programs' own operations, with their records of dimension
  numbers, written once so that each side's result can be stated over them and the two compared without
  opening a gather or an accumulating scatter.
-/
import proofs.«158699_j82497731822015_1_alg».proof.Proof.Gen.KernelIdeal

noncomputable section

namespace Cert.KernelIdeal.Hand

open Idealize.ShloMosaic Cert.KernelIdeal Cert.KernelIdeal.Facts₀ Cert.KernelIdeal.Facts

variable {F : FTy → Type} [FloatOps F]

/-- An index below zero counts from the end: the wrap jnp indexing applies before a gather. -/
def wrapIdx (x : (⟨S1700000, .i32⟩ : BufTy).Contents (Elt F)) : (⟨S1700000x1, .i32⟩ : BufTy).Contents (Elt F) :=
  broadcastInDim S1700000x1 ![0] bcast_S1700000_S1700000x1_0
    (select (cmpi .slt x (broadcastInDim S1700000 ![] bcast_S_S1700000 (constantI S_ 32 0#32)))
      (addi x (broadcastInDim S1700000 ![] bcast_S_S1700000 (constantI S_ 32 100000#32))) x)

/-- Row `r` of the edge list followed by the node numbers 0 … 99999 (the self-loops). -/
def srcIdx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

def dstIdx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The degree of every node: ones accumulated at the destinations. -/
def degree (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 dst)
    (broadcastInDim S1700000 ![] bcast_S_S1700000 (constant (F := F) S_ .f32 0x3F800000#32))

/-- The inverse square root of the degree where it is positive, zero elsewhere. -/
def invSqrtDeg (dst : (⟨S1700000, .i32⟩ : BufTy).Contents (Elt F)) : (⟨S100000, .f32⟩ : BufTy).Contents (Elt F) :=
  select (cmpf (F := F) .ogt (degree dst) (broadcastInDim S100000 ![] bcast_S_S100000 (constant (F := F) S_ .f32 0x00000000#32)))
    (Host.rsqrt (degree dst))
    (broadcastInDim S100000 ![] bcast_S_S100000 (id (constant (F := F) S_ .f32 0x00000000#32)))

/-- An edge's weight: that value at its source times that value at its destination. -/
def edgeNorm (e : (⟨S2x1600000, .i32⟩ : BufTy).Contents (Elt F)) : (⟨S1700000, .f32⟩ : BufTy).Contents (Elt F) :=
  mulf (Host.gather gather_S100000_S1700000x1_S1700000_n_0_n_n_0_1_1 (invSqrtDeg (dstIdx e)) (wrapIdx (srcIdx e)))
    (Host.gather gather_S100000_S1700000x1_S1700000_n_0_n_n_0_1_1 (invSqrtDeg (dstIdx e)) (wrapIdx (dstIdx e)))

/-- One layer at width 128: gather the rows at the sources, scale by the weights, accumulate at the destinations, add the bias. -/
def layer128 (h : (⟨S100000x128, .f32⟩ : BufTy).Contents (Elt F)) (nrm : (⟨S1700000, .f32⟩ : BufTy).Contents (Elt F))
    (src dst : (⟨S1700000, .i32⟩ : BufTy).Contents (Elt F)) (b : (⟨S128, .f32⟩ : BufTy).Contents (Elt F)) :
    (⟨S100000x128, .f32⟩ : BufTy).Contents (Elt F) :=
  addf
    (Host.scatterAdd scatter_S100000x128_S1700000x1_S1700000x128_1_0_0_1
      (broadcastInDim S100000x128 ![] bcast_S_S100000x128 (constant (F := F) S_ .f32 0x00000000#32))
      (broadcastInDim S1700000x1 ![0] bcast_S1700000_S1700000x1_0 dst)
      (mulf (Host.gather gather_S100000x128_S1700000x1_S1700000x128_1_0_n_n_0_1_1128 h (wrapIdx src))
        (broadcastInDim S1700000x128 ![0, 1] bcast_S1700000x1_S1700000x128_0_1 (broadcastInDim S1700000x1 ![0] bcast_S1700000_S1700000x1_0 nrm))))
    (broadcastInDim S100000x128 ![0, 1] bcast_S1x128_S100000x128_0_1 (broadcastInDim S1x128 ![1] bcast_S128_S1x128_1 b))

/-- The positive part, entry by entry. -/
def posPart (x : (⟨S100000x128, .f32⟩ : BufTy).Contents (Elt F)) : (⟨S100000x128, .f32⟩ : BufTy).Contents (Elt F) :=
  maximumf x (broadcastInDim S100000x128 ![] bcast_S_S100000x128 (constant (F := F) S_ .f32 0x00000000#32))

/-- The same layer at width 3. -/
def layer3 (h : (⟨S100000x3, .f32⟩ : BufTy).Contents (Elt F)) (nrm : (⟨S1700000, .f32⟩ : BufTy).Contents (Elt F))
    (src dst : (⟨S1700000, .i32⟩ : BufTy).Contents (Elt F)) (b : (⟨S3, .f32⟩ : BufTy).Contents (Elt F)) :
    (⟨S100000x3, .f32⟩ : BufTy).Contents (Elt F) :=
  addf
    (Host.scatterAdd scatter_S100000x3_S1700000x1_S1700000x3_1_0_0_1
      (broadcastInDim S100000x3 ![] bcast_S_S100000x3 (constant (F := F) S_ .f32 0x00000000#32))
      (broadcastInDim S1700000x1 ![0] bcast_S1700000_S1700000x1_0 dst)
      (mulf (Host.gather gather_S100000x3_S1700000x1_S1700000x3_1_0_n_n_0_1_13 h (wrapIdx src))
        (broadcastInDim S1700000x3 ![0, 1] bcast_S1700000x1_S1700000x3_0_1 (broadcastInDim S1700000x1 ![0] bcast_S1700000_S1700000x1_0 nrm))))
    (broadcastInDim S100000x3 ![0, 1] bcast_S1x3_S100000x3_0_1 (broadcastInDim S1x3 ![1] bcast_S3_S1x3_1 b))

end Cert.KernelIdeal.Hand

end
-- ==== Proof.HostStretches.lean ====
/-
  The host operations of the kernel's program, stretch by stretch, read as functions of what each stretch starts
  from — for any contents `W` at the stretch's start and any float family.

  Before the first region (`pre`): the two operands of the first product are the node features and the first weight
  matrix rounded to the 16-bit format, the edge list gives the sources, the destinations and the edge weights, and
  the biases and the second weight matrix are not touched. Between the regions (`mid`): the first product's result
  goes through one layer at width 128 and the positive part, and is rounded again, beside the second weight matrix
  rounded; the edge quantities and the last bias are not touched. After the second region (`tail`): its result goes
  through the layer at width 3. Each fact is the stretch's operations composed, read back at one buffer.
-/
import proofs.«158699_j82497731822015_1_alg».proof.Proof.Gen.KernelIdeal.Launch
import proofs.«158699_j82497731822015_1_alg».proof.Proof.HostParts
import Idealize.ShloMosaic.Lib.StableHlo.Run

set_option maxRecDepth 8192

noncomputable section

namespace Cert.KernelIdeal.Hand

open Idealize.ShloMosaic Idealize.ShloMosaic.StableHlo Idealize.ShloMosaic.TcCoe Cert.KernelIdeal Cert.KernelIdeal.Gen

variable {F : FTy → Type} [FloatOps F]

/-! ## Before the first region -/

/-- The contents when the first region is entered, from the contents the program starts with. -/
abbrev pre (W : Valuation τ sig (Elt F)) : Valuation τ sig (Elt F) := after hostOps0_2 (after hostOps0_1 (after hostOps0 W))

theorem pre_v30 (W : Valuation τ sig (Elt F)) :
    pre W (Proc.devRef .tc main_v30) = truncf .bf16 (W (Proc.devRef .tc main_arg0) : (⟨S100000x512, .f32⟩ : BufTy).Contents (Elt F)) Facts₀.bitsLt_bf16_f32 := by
  simp only [pre, hostOps0, hostOps0_1, hostOps0_2]
  after_results_simp <;> rfl

theorem pre_v31 (W : Valuation τ sig (Elt F)) :
    pre W (Proc.devRef .tc main_v31) = truncf .bf16 (W (Proc.devRef .tc main_arg1) : (⟨S512x128, .f32⟩ : BufTy).Contents (Elt F)) Facts₀.bitsLt_bf16_f32 := by
  simp only [pre, hostOps0, hostOps0_1, hostOps0_2]
  after_results_simp <;> rfl

theorem pre_v3 (W : Valuation τ sig (Elt F)) :
    pre W (Proc.devRef .tc main_v3) = srcIdx (W (Proc.devRef .tc main_arg5) : (⟨S2x1600000, .i32⟩ : BufTy).Contents (Elt F)) := by
  simp only [pre, hostOps0, hostOps0_1, hostOps0_2]
  after_results_simp <;> rfl

theorem pre_v6 (W : Valuation τ sig (Elt F)) :
    pre W (Proc.devRef .tc main_v6) = dstIdx (W (Proc.devRef .tc main_arg5) : (⟨S2x1600000, .i32⟩ : BufTy).Contents (Elt F)) := by
  simp only [pre, hostOps0, hostOps0_1, hostOps0_2]
  after_results_simp <;> rfl

theorem pre_v29 (W : Valuation τ sig (Elt F)) :
    pre W (Proc.devRef .tc main_v29) = edgeNorm (W (Proc.devRef .tc main_arg5) : (⟨S2x1600000, .i32⟩ : BufTy).Contents (Elt F)) := by
  simp only [pre, hostOps0, hostOps0_1, hostOps0_2]
  after_results_simp <;> rfl

theorem pre_arg2 (W : Valuation τ sig (Elt F)) : pre W (Proc.devRef .tc main_arg2) = W (Proc.devRef .tc main_arg2) := by
  simp only [pre, hostOps0, hostOps0_1, hostOps0_2]
  after_results_simp <;> rfl

theorem pre_arg3 (W : Valuation τ sig (Elt F)) : pre W (Proc.devRef .tc main_arg3) = W (Proc.devRef .tc main_arg3) := by
  simp only [pre, hostOps0, hostOps0_1, hostOps0_2]
  after_results_simp <;> rfl

theorem pre_arg4 (W : Valuation τ sig (Elt F)) : pre W (Proc.devRef .tc main_arg4) = W (Proc.devRef .tc main_arg4) := by
  simp only [pre, hostOps0, hostOps0_1, hostOps0_2]
  after_results_simp <;> rfl

/-! ## Between the regions -/

/-- The contents when the second region is entered, from the contents the first region leaves. -/
abbrev mid (W : Valuation τ sig (Elt F)) : Valuation τ sig (Elt F) := after hostOps1_2 (after hostOps1_1 (after hostOps1 W))

theorem mid_v50 (W : Valuation τ sig (Elt F)) :
    mid W (Proc.devRef .tc main_v50)
      = truncf .bf16 (posPart (layer128 (W (Proc.devRef .tc main_v32)) (W (Proc.devRef .tc main_v29)) (W (Proc.devRef .tc main_v3))
          (W (Proc.devRef .tc main_v6)) (W (Proc.devRef .tc main_arg2)))) Facts₀.bitsLt_bf16_f32 := by
  simp only [mid, hostOps1, hostOps1_1, hostOps1_2]
  after_results_simp <;> rfl

theorem mid_v51 (W : Valuation τ sig (Elt F)) :
    mid W (Proc.devRef .tc main_v51) = truncf .bf16 (W (Proc.devRef .tc main_arg3) : (⟨S128x3, .f32⟩ : BufTy).Contents (Elt F)) Facts₀.bitsLt_bf16_f32 := by
  simp only [mid, hostOps1, hostOps1_1, hostOps1_2]
  after_results_simp <;> rfl

theorem mid_v29 (W : Valuation τ sig (Elt F)) : mid W (Proc.devRef .tc main_v29) = W (Proc.devRef .tc main_v29) := by
  simp only [mid, hostOps1, hostOps1_1, hostOps1_2]
  after_results_simp <;> rfl

theorem mid_v3 (W : Valuation τ sig (Elt F)) : mid W (Proc.devRef .tc main_v3) = W (Proc.devRef .tc main_v3) := by
  simp only [mid, hostOps1, hostOps1_1, hostOps1_2]
  after_results_simp <;> rfl

theorem mid_v6 (W : Valuation τ sig (Elt F)) : mid W (Proc.devRef .tc main_v6) = W (Proc.devRef .tc main_v6) := by
  simp only [mid, hostOps1, hostOps1_1, hostOps1_2]
  after_results_simp <;> rfl

theorem mid_arg4 (W : Valuation τ sig (Elt F)) : mid W (Proc.devRef .tc main_arg4) = W (Proc.devRef .tc main_arg4) := by
  simp only [mid, hostOps1, hostOps1_1, hostOps1_2]
  after_results_simp <;> rfl

/-! ## After the second region -/

theorem tail_v68 (W : Valuation τ sig (Elt F)) :
    after hostOps2 W (Proc.devRef .tc main_v68)
      = layer3 (W (Proc.devRef .tc main_v52)) (W (Proc.devRef .tc main_v29)) (W (Proc.devRef .tc main_v3))
          (W (Proc.devRef .tc main_v6)) (W (Proc.devRef .tc main_arg4)) := by
  simp only [hostOps2]
  after_results_simp <;> rfl

end Cert.KernelIdeal.Hand

end
-- ==== Proof.KValue.lean ====
/-
  The kernel program's result as ONE function of its arguments, at the extended reals.

  The program is: host operations, the first tiled product, host operations, the second tiled product, host operations.
  Reading the buffer contents boundary by boundary: the first product's operands are the node features and the first
  weight matrix (a change of float format is not seen at the extended reals), so its result array is their product;
  that goes through the layer at width 128 and the positive part and is the second product's left operand, the right
  one being the second weight matrix; the second product's result goes through the layer at width 3. The edge
  quantities are computed once, before the first region, and neither region nor any later host operation writes them.
-/
import proofs.«158699_j82497731822015_1_alg».proof.Proof.Gen.KernelIdeal.Frame
import proofs.«158699_j82497731822015_1_alg».proof.Proof.Region0
import proofs.«158699_j82497731822015_1_alg».proof.Proof.Region1
import proofs.«158699_j82497731822015_1_alg».proof.Proof.HostStretches

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg)

/-- Rounding to a narrower float format is the identity at the extended reals. -/
theorem truncf_ideal {s : Shape} (a : FVec Ideal s .f32) (h : FTy.bits .bf16 < FTy.bits .f32) : truncf .bf16 a h = a := rfl

/-- The result of the two layers over the two products, as a function of the seven argument arrays' contents. -/
def result (x : S100000x512.Idx → EReal) (w1 : S512x128.Idx → EReal) (b1 : (⟨S128, .f32⟩ : BufTy).Contents (Elt Ideal))
    (w2 : S128x3.Idx → EReal) (b2 : (⟨S3, .f32⟩ : BufTy).Contents (Elt Ideal))
    (e : (⟨S2x1600000, .i32⟩ : BufTy).Contents (Elt Ideal)) : S100000x3.Idx → EReal :=
  layer3 (F := Ideal)
    (RowBlockProduct.prod (posPart (F := Ideal) (layer128 (F := Ideal) (RowBlockProduct.prod x w1) (edgeNorm e) (srcIdx e) (dstIdx e) b1)) w2)
    (edgeNorm e) (srcIdx e) (dstIdx e) b2

/-! ## The first region's entry -/

theorem W3_v30 (c : Dev nD) : W3 m ρ c (Proc.devRef .tc main_v30) = m ((c.tc : Thread nD τ).loc main_arg0) :=
  (pre_v30 (W0 m ρ c)).trans (truncf_ideal _ _)
theorem W3_v31 (c : Dev nD) : W3 m ρ c (Proc.devRef .tc main_v31) = m ((c.tc : Thread nD τ).loc main_arg1) :=
  (pre_v31 (W0 m ρ c)).trans (truncf_ideal _ _)
theorem W3_v29 (c : Dev nD) : W3 m ρ c (Proc.devRef .tc main_v29) = edgeNorm (m ((c.tc : Thread nD τ).loc main_arg5)) :=
  (pre_v29 (W0 m ρ c)).trans rfl
theorem W3_v3 (c : Dev nD) : W3 m ρ c (Proc.devRef .tc main_v3) = srcIdx (m ((c.tc : Thread nD τ).loc main_arg5)) :=
  (pre_v3 (W0 m ρ c)).trans rfl
theorem W3_v6 (c : Dev nD) : W3 m ρ c (Proc.devRef .tc main_v6) = dstIdx (m ((c.tc : Thread nD τ).loc main_arg5)) :=
  (pre_v6 (W0 m ρ c)).trans rfl
theorem W3_arg2 (c : Dev nD) : W3 m ρ c (Proc.devRef .tc main_arg2) = m ((c.tc : Thread nD τ).loc main_arg2) :=
  (pre_arg2 (W0 m ρ c)).trans rfl
theorem W3_arg3 (c : Dev nD) : W3 m ρ c (Proc.devRef .tc main_arg3) = m ((c.tc : Thread nD τ).loc main_arg3) :=
  (pre_arg3 (W0 m ρ c)).trans rfl
theorem W3_arg4 (c : Dev nD) : W3 m ρ c (Proc.devRef .tc main_arg4) = m ((c.tc : Thread nD τ).loc main_arg4) :=
  (pre_arg4 (W0 m ρ c)).trans rfl

/-! ## The first region's exit -/

/-- The first product's result array: the node features times the first weight matrix. -/
theorem W4_v32 (c : Dev nD) : W4 m ρ c (Proc.devRef .tc main_v32)
    = RowBlockProduct.prod (m ((c.tc : Thread nD τ).loc main_arg0) : S100000x512.Idx → EReal) (m ((c.tc : Thread nD τ).loc main_arg1) : S512x128.Idx → EReal) := by
  refine (W4_arr m ρ c 2).trans ((final0 (V3 m ρ) c).trans ?_)
  show RowBlockProduct.prod (W3 m ρ c (Proc.devRef .tc main_v30) : S100000x512.Idx → EReal) (W3 m ρ c (Proc.devRef .tc main_v31) : S512x128.Idx → EReal) = _
  rw [W3_v30, W3_v31]

theorem W4_v29 (c : Dev nD) : W4 m ρ c (Proc.devRef .tc main_v29) = edgeNorm (m ((c.tc : Thread nD τ).loc main_arg5)) :=
  (W4_of_ne m ρ c main_v29 (by decide)).trans (W3_v29 m ρ c)
theorem W4_v3 (c : Dev nD) : W4 m ρ c (Proc.devRef .tc main_v3) = srcIdx (m ((c.tc : Thread nD τ).loc main_arg5)) :=
  (W4_of_ne m ρ c main_v3 (by decide)).trans (W3_v3 m ρ c)
theorem W4_v6 (c : Dev nD) : W4 m ρ c (Proc.devRef .tc main_v6) = dstIdx (m ((c.tc : Thread nD τ).loc main_arg5)) :=
  (W4_of_ne m ρ c main_v6 (by decide)).trans (W3_v6 m ρ c)
theorem W4_arg2 (c : Dev nD) : W4 m ρ c (Proc.devRef .tc main_arg2) = m ((c.tc : Thread nD τ).loc main_arg2) :=
  (W4_of_ne m ρ c main_arg2 (by decide)).trans (W3_arg2 m ρ c)
theorem W4_arg3 (c : Dev nD) : W4 m ρ c (Proc.devRef .tc main_arg3) = m ((c.tc : Thread nD τ).loc main_arg3) :=
  (W4_of_ne m ρ c main_arg3 (by decide)).trans (W3_arg3 m ρ c)
theorem W4_arg4 (c : Dev nD) : W4 m ρ c (Proc.devRef .tc main_arg4) = m ((c.tc : Thread nD τ).loc main_arg4) :=
  (W4_of_ne m ρ c main_arg4 (by decide)).trans (W3_arg4 m ρ c)

/-! ## The second region's entry -/

/-- The second product's left operand: the first layer's positive part. -/
theorem W7_v50 (c : Dev nD) : W7 m ρ c (Proc.devRef .tc main_v50)
    = posPart (F := Ideal) (layer128 (F := Ideal)
        (RowBlockProduct.prod (m ((c.tc : Thread nD τ).loc main_arg0) : S100000x512.Idx → EReal) (m ((c.tc : Thread nD τ).loc main_arg1) : S512x128.Idx → EReal))
        (edgeNorm (m ((c.tc : Thread nD τ).loc main_arg5))) (srcIdx (m ((c.tc : Thread nD τ).loc main_arg5)))
        (dstIdx (m ((c.tc : Thread nD τ).loc main_arg5))) (m ((c.tc : Thread nD τ).loc main_arg2))) := by
  refine (mid_v50 (W4 m ρ c)).trans ((truncf_ideal _ _).trans ?_)
  rw [W4_v32, W4_v29, W4_v3, W4_v6, W4_arg2]

theorem W7_v51 (c : Dev nD) : W7 m ρ c (Proc.devRef .tc main_v51) = m ((c.tc : Thread nD τ).loc main_arg3) := by
  exact (mid_v51 (W4 m ρ c)).trans ((truncf_ideal _ _).trans (W4_arg3 m ρ c))

theorem W7_v29 (c : Dev nD) : W7 m ρ c (Proc.devRef .tc main_v29) = edgeNorm (m ((c.tc : Thread nD τ).loc main_arg5)) :=
  (mid_v29 (W4 m ρ c)).trans (W4_v29 m ρ c)
theorem W7_v3 (c : Dev nD) : W7 m ρ c (Proc.devRef .tc main_v3) = srcIdx (m ((c.tc : Thread nD τ).loc main_arg5)) :=
  (mid_v3 (W4 m ρ c)).trans (W4_v3 m ρ c)
theorem W7_v6 (c : Dev nD) : W7 m ρ c (Proc.devRef .tc main_v6) = dstIdx (m ((c.tc : Thread nD τ).loc main_arg5)) :=
  (mid_v6 (W4 m ρ c)).trans (W4_v6 m ρ c)
theorem W7_arg4 (c : Dev nD) : W7 m ρ c (Proc.devRef .tc main_arg4) = m ((c.tc : Thread nD τ).loc main_arg4) :=
  (mid_arg4 (W4 m ρ c)).trans (W4_arg4 m ρ c)

/-! ## The second region's exit, and the result -/

theorem W8_v52 (c : Dev nD) : W8 m ρ c (Proc.devRef .tc main_v52)
    = RowBlockProduct.prod (W7 m ρ c (Proc.devRef .tc main_v50) : S100000x128.Idx → EReal) (W7 m ρ c (Proc.devRef .tc main_v51) : S128x3.Idx → EReal) :=
  (W8_arr m ρ c 2).trans (final1 (V7 m ρ) c)

/-- THE RESULT BUFFER after the last host operation: `result` of the arguments. -/
theorem W9_v68 (c : Dev nD) : W9 m ρ c (Proc.devRef .tc main_v68)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (tail_v68 (W8 m ρ c)).trans ?_
  unfold result
  rw [W8_v52, W8_of_ne m ρ c main_v29 (by decide), W8_of_ne m ρ c main_v3 (by decide), W8_of_ne m ρ c main_v6 (by decide),
    W8_of_ne m ρ c main_arg4 (by decide), W7_v50, W7_v51, W7_v29, W7_v3, W7_v6, W7_arg4]

end Cert.KernelIdeal.Hand

end
-- ==== Proof.RefValue.lean ====
/-
  The reference's result as the same function of its arguments.

  The reference program is host operations only. Its run ends with the result buffer at the composed term of its 83
  operations; that term is the layer at width 3 of (the positive part of the layer at width 128 of the first host
  dot product) times the second weight matrix, with the same edge quantities — the very operations the kernel's
  program applies around its two tiled products, with the same records of dimension numbers (`res_eq`, for any float
  family: the two sides unfold to one term). At the extended reals a host dot product with the plain dimension
  numbers is the matrix product (`RowBlockProduct.dotGeneral_eq_prod`), so the reference's result is `Hand.result` of its
  arguments (`res_eq_result`).
-/
import proofs.«158699_j82497731822015_1_alg».proof.Proof.RefRun
import proofs.«158699_j82497731822015_1_alg».proof.Proof.HostParts
import proofs.«158699_j82497731822015_1_alg».proof.Proof.LibRowBlockProduct
import proofs.«158699_j82497731822015_1_alg».proof.Proof.KValue

set_option maxRecDepth 8192

noncomputable section

namespace Cert.ReferenceIdeal.Hand

open Idealize.ShloMosaic Idealize.ShloMosaic.TcCoe Idealize.SL.Sem
open Cert.KernelIdeal.Hand

variable {F : FTy → Type} [FloatOps F]

/-- The reference's result: the same layers around two host dot products. -/
theorem res_eq (m : (ℓ : Loc Cert.ReferenceIdeal.nD Cert.ReferenceIdeal.τ Cert.ReferenceIdeal.sig) → Buf (Elt F) ℓ) (c : Dev Cert.ReferenceIdeal.nD) :
    Cert.ReferenceIdeal.ValueP.res_main_v64 (F := F) m c
      = layer3 (F := F)
          (Host.dotGeneral Cert.ReferenceIdeal.dot_S100000x128_S128x3_S100000x3_1_0_0_1_n_n none
            (posPart (layer128
              (Host.dotGeneral Cert.ReferenceIdeal.dot_S100000x512_S512x128_S100000x128_1_0_0_1_n_n none
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1)))
              (edgeNorm (m ((c.tc : Thread Cert.ReferenceIdeal.nD Cert.ReferenceIdeal.τ).loc Cert.ReferenceIdeal.main_arg5)))
              (srcIdx (m ((c.tc : Thread Cert.ReferenceIdeal.nD Cert.ReferenceIdeal.τ).loc Cert.ReferenceIdeal.main_arg5)))
              (dstIdx (m ((c.tc : Thread Cert.ReferenceIdeal.nD Cert.ReferenceIdeal.τ).loc Cert.ReferenceIdeal.main_arg5)))
              (m ((c.tc : Thread Cert.ReferenceIdeal.nD Cert.ReferenceIdeal.τ).loc Cert.ReferenceIdeal.main_arg2))))
            (m ((c.tc : Thread Cert.ReferenceIdeal.nD Cert.ReferenceIdeal.τ).loc Cert.ReferenceIdeal.main_arg3)))
          (edgeNorm (m ((c.tc : Thread Cert.ReferenceIdeal.nD Cert.ReferenceIdeal.τ).loc Cert.ReferenceIdeal.main_arg5)))
          (srcIdx (m ((c.tc : Thread Cert.ReferenceIdeal.nD Cert.ReferenceIdeal.τ).loc Cert.ReferenceIdeal.main_arg5)))
          (dstIdx (m ((c.tc : Thread Cert.ReferenceIdeal.nD Cert.ReferenceIdeal.τ).loc Cert.ReferenceIdeal.main_arg5)))
          (m ((c.tc : Thread Cert.ReferenceIdeal.nD Cert.ReferenceIdeal.τ).loc Cert.ReferenceIdeal.main_arg4)) := by
  unfold Cert.ReferenceIdeal.ValueP.res_main_v64
  rfl

/-- The reference's two dot products contract the left operand's columns with the right operand's rows. -/
theorem plainR1 : PlainDot.IsPlain Cert.ReferenceIdeal.dot_S100000x512_S512x128_S100000x128_1_0_0_1_n_n := ⟨rfl, rfl, rfl, rfl, rfl, rfl⟩
theorem plainR2 : PlainDot.IsPlain Cert.ReferenceIdeal.dot_S100000x128_S128x3_S100000x3_1_0_0_1_n_n := ⟨rfl, rfl, rfl, rfl, rfl, rfl⟩

/-- At the extended reals the reference's result is `result` of its arguments. -/
theorem res_eq_result (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v64 (F := Ideal) m c
      = result (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) := by
  rw [res_eq (F := Ideal) m c, RowBlockProduct.dotGeneral_eq_prod plainR1, RowBlockProduct.dotGeneral_eq_prod plainR2]
  unfold result
  rfl

end Cert.ReferenceIdeal.Hand

end
-- ==== Proof.lean ====
/-
  A two-layer graph convolution: for node features x, weight matrices w1, w2, biases b1, b2 and an edge list e, both
  programs compute  layer3 ((posPart (layer128 (x · w1))) · w2),  where a layer gathers the rows of its node table at
  the edges' sources, scales each by the edge's symmetric weight 1/√(deg src · deg dst), accumulates them at the
  destinations and adds a bias. The reference does all of it with host operations. The kernel's program does the two
  matrix products as tiled kernels — ten blocks of 10000 rows each, the operands first rounded to a 16-bit float
  format — and everything else with the same host operations.

  At the extended reals a change of float format is the identity, and entry (r, q) of a product reads row r of the
  left matrix only, so the ten blocks a tiled product writes are the ten row blocks of the whole product, which is
  what the host's dot product computes: both are the sum over k of l(r, k) · r(k, q), the same terms, nothing
  regrouped, so no finiteness of the inputs is used. Around the products both programs apply the same operations to
  equal values. Hence the two results are one function of the arguments (`Hand.result`).

  The frames of the two kernel programs are the generated ones; the reference's frame is its run with the result
  dropped; the idealization rewrote no operation, so `preserves` asks nothing.
-/
import proofs.«158699_j82497731822015_1_alg».proof.Defs
import proofs.«158699_j82497731822015_1_alg».proof.Proof.Gen.Kernel
import proofs.«158699_j82497731822015_1_alg».proof.Proof.Gen.Kernel.Skeleton
import proofs.«158699_j82497731822015_1_alg».proof.Proof.Gen.Kernel.Launch
import proofs.«158699_j82497731822015_1_alg».proof.Proof.Gen.Kernel.Points
import proofs.«158699_j82497731822015_1_alg».proof.Proof.Gen.Kernel.Frame
import proofs.«158699_j82497731822015_1_alg».proof.Proof.Gen.KernelIdeal
import proofs.«158699_j82497731822015_1_alg».proof.Proof.Gen.KernelIdeal.Skeleton
import proofs.«158699_j82497731822015_1_alg».proof.Proof.Gen.KernelIdeal.Launch
import proofs.«158699_j82497731822015_1_alg».proof.Proof.Gen.KernelIdeal.Points
import proofs.«158699_j82497731822015_1_alg».proof.Proof.Gen.KernelIdeal.Frame
import proofs.«158699_j82497731822015_1_alg».proof.Proof.Gen.ReferenceIdeal
import proofs.«158699_j82497731822015_1_alg».proof.Proof.Gen.Pre_finite_inputs
import proofs.«158699_j82497731822015_1_alg».proof.Proof.RefRun
import proofs.«158699_j82497731822015_1_alg».proof.Proof.KRun
import proofs.«158699_j82497731822015_1_alg».proof.Proof.KValue
import proofs.«158699_j82497731822015_1_alg».proof.Proof.RefValue
import Idealize.ShloMosaic.Adequacy
import Idealize.ShloMosaic.Init

noncomputable section

namespace Cert.Proof

open Idealize.ShloMosaic Idealize.SL.Sem

/-- The kernel's program as printed terminates without a fault and leaves its arguments unchanged. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result buffer at `result` of the arguments; the arguments agree. -/
theorem algebraic : Cert.algebraic_KernelIdeal_ReferenceIdeal := by
  intro m ρ m' ρ' _ hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.W9_v68 m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Hand.res_eq_result m' c]
    obtain ⟨h0, h1, h2, h3, h4, h5, -⟩ := hagree c
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
